-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S128x1 : Shape := ⟨2, ![128, 1]⟩
abbrev S128x8192 : Shape := ⟨2, ![128, 8192]⟩
abbrev S128x256 : Shape := ⟨2, ![128, 256]⟩
abbrev S128 : Shape := ⟨1, ![128]⟩

abbrev nBuf : Space → Nat
  | .hbm => 7
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S_, .f32⟩
  | .hbm, ⟨3, _⟩ => ⟨S8192, .f32⟩
  | .hbm, ⟨4, _⟩ => ⟨S1x8192, .f32⟩
  | .hbm, ⟨5, _⟩ => ⟨S8192x1, .f32⟩
  | .hbm, ⟨6, _⟩ => ⟨S8192x8192, .f32⟩
  | .local _ .vmem, ⟨0, _⟩ => ⟨S8192x256, .f32⟩
  | .local _ .vmem, ⟨1, _⟩ => ⟨S1x8192, .f32⟩
  | .local _ .vmem, ⟨2, _⟩ => ⟨S128x1, .f32⟩
  | .local _ .vmem, ⟨3, _⟩ => ⟨S128x1, .f32⟩
  | .local _ .vmem, ⟨4, _⟩ => ⟨S128x8192, .f32⟩
  | .local _ .vmem, ⟨5, _⟩ => ⟨S128x8192, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def k0_mult1 (i : grid0.Coords) : BitVec 32 :=
  let arg0 : BitVec 32 := BitVec.ofNat 32 (i 0).val
  let c128_i32 : BitVec 32 := 128#32
  let v0 : BitVec 32 := Scalar.muli arg0 c128_i32
  v0
def k0_off1 (i : grid0.Coords) : Fin 2 → Nat :=
  let arg0 : BitVec 32 := BitVec.ofNat 32 (i 0).val
  let c128_i32 : BitVec 32 := 128#32
  let v0 : BitVec 32 := Scalar.muli arg0 c128_i32
  let v1 : BitVec 32 := v0
  let v4 : Index := Scalar.indexCast v1
  let c0_1 : Index := 0#32
  ![v4.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8192x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S8192x256_S8192_d1 : S8192x256.ReducesTo [1] S8192
  h_S_ : 0 < S_.numel
  shapeCasts_S8192_S1x8192 : S8192.ShapeCasts S1x8192
  shapeCasts_S8192_S8192x1 : S8192.ShapeCasts S8192x1
  inb_S8192x256_S8192x256_0_0 : ∀ a, (![0, 0] : Fin 2 → Nat) a + S8192x256.size a ≤ S8192x256.size a
  h_S8192x256 : 0 < S8192x256.numel
  bitsLt_bf16_f32 : FTy.bits .bf16 < FTy.bits .f32
  h_S128x256 : 0 < S128x256.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S128x1_S128x8192 : S128x1.Broadcasts S128x8192
  broadcasts_S1x8192_S128x8192 : S1x8192.Broadcasts S128x8192
  reduces_S128x8192_S128 : S128x8192.Reduces [1] S128
  shapeCasts_S128_S128x1 : S128.ShapeCasts S128x1
  inb_S128x8192_S128x8192_0_0 : ∀ a, (![0, 0] : Fin 2 → Nat) a + S128x8192.size a ≤ S128x8192.size a
  h_S128x8192 : 0 < S128x8192.numel
  dot_S128x256_S8192x256_S128x8192_1_1_0_0_n_n_wf : DotDims.WF S128x256 S8192x256 S128x8192 [1] [1] [0] [0] [] []
  hrank0 : 0 < grid0.rank
  k0_mult1_dvd : ∀ i : grid0.Coords, 128 ∣ (k0_mult1 i).toNat
  k0_off1_inb : ∀ i : grid0.Coords, ∀ a, (k0_off1 i) a + S128x256.size a ≤ S8192x256.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S8192x256.size a
  hwx0_0 : ∀ i : grid0.Coords, EltTy.bits .f32 = 32 ∨ (Rect.block (s := S8192x256) S8192x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .f32 = 32 ∨ (Rect.block (s := S1x8192) S1x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S8192x1.size a
  hwx0_2 : ∀ i : grid0.Coords, EltTy.bits .f32 = 32 ∨ (Rect.block (s := S8192x1) S128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x8192.size a ≤ S8192x8192.size a
  hwx0_3 : ∀ i : grid0.Coords, EltTy.bits .f32 = 32 ∨ (Rect.block (s := S8192x8192) S128x8192.size (cc0_transform_3 i) (hinb0_3 i)).WholeWords (EltTy.packing .f32)

variable [Facts₀]

def dot_S128x256_S8192x256_S128x8192_1_1_0_0_n_n : DotDims S128x256 S8192x256 S128x8192 where
  lhsContracting := [1]
  rhsContracting := [1]
  lhsNonContracting := [0]
  rhsNonContracting := [0]
  lhsBatch := []
  rhsBatch := []
  wf := dot_S128x256_S8192x256_S128x8192_1_1_0_0_n_n_wf

abbrev win0_0 : Pipeline.Window sig grid0 :=
  Pipeline.Window.ofSpec (Memref.whole main_arg0) S8192x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S256x8192 : Shape := ⟨2, ![256, 8192]⟩

abbrev nBuf : Space → Nat
  | .hbm => 35
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S1x8192, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S256x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x8192, .f32⟩
  | .hbm, ⟨34, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.Spec.lean ====
/-
  The mathematics of the certificate, with no program in sight.

  For a matrix x of 8192 rows and 256 columns over the extended reals, write
    n r      = 0 + ∑ₖ x r k · x r k                 the squared norm of row r,
    g r j    = ∑ₖ x r k · x j k                     the Gram entry of rows r and j,
    s r j    = max (n r + n j − 2 · g r j) 0        the clamped squared distance,
    d r j    = √(s r j) where s r j > 0, else 0     the distance (the square root taken of 1 where it is not used),
    out r j  = d r j / ∑ⱼ' d r j'                   the distance divided by its row's sum.
  Both programs compute `out`; they differ in how the Gram entries and the row sums are tiled, which
  over the extended reals changes nothing: each side is read, entry by entry, as exactly these sums.
  The three float literals (0, 1, 2) are kept as the words both programs print.
-/
import Idealize.ShloMosaic.PureOps.Ideal
import Idealize.ShloMosaic.PureOps.Ideal.Laws
import Idealize.ShloMosaic.Lib.ValueIdx

noncomputable section

namespace PairwiseDist

open Idealize.ShloMosaic Idealize.ShloMosaic.ValueIdx

/-- The words of the literals 0, 2 and 1 as extended reals. -/
abbrev zero : EReal := Ideal.ofBits .f32 0x00000000#32
abbrev two : EReal := Ideal.ofBits .f32 0x40000000#32
abbrev one : EReal := Ideal.ofBits .f32 0x3F800000#32

/-- One entry's distance from the two squared norms `a`, `b` and the Gram entry `g`:
    `s = max (a + b − 2 g) 0`, then `√s` where `s > 0` and `0` elsewhere; inside the root the
    unused branch is replaced by 1, as both programs do. -/
def distOf (a b g : EReal) : EReal :=
  Scalar.select (Ideal.cmp .ogt (max (a + b - two * g) zero) zero)
    (Ideal.sqrt (Scalar.select (Ideal.cmp .ogt (max (a + b - two * g) zero) zero) (max (a + b - two * g) zero) one))
    zero

/-- The squared norm of row `r` (the host's sum: the initial word plus the sum over the columns). -/
def sqNorm (x : (⟨2, ![8192, 256]⟩ : Shape).Idx → EReal) (r : Fin 8192) : EReal :=
  zero + ∑ k : Fin 256, x (ix2 r k) * x (ix2 r k)

/-- The Gram entry of rows `r` and `j`. -/
def gram (x : (⟨2, ![8192, 256]⟩ : Shape).Idx → EReal) (r j : Fin 8192) : EReal :=
  ∑ k : Fin 256, x (ix2 r k) * x (ix2 j k)

/-- The distance between rows `r` and `j`. -/
def dist (x : (⟨2, ![8192, 256]⟩ : Shape).Idx → EReal) (r j : Fin 8192) : EReal :=
  distOf (sqNorm x r) (sqNorm x j) (gram x r j)

/-- The whole result: each distance divided by the sum of its row. -/
def normDist (x : (⟨2, ![8192, 256]⟩ : Shape).Idx → EReal) : (⟨2, ![8192, 8192]⟩ : Shape).Idx → EReal :=
  fun i => Ideal.div (dist x (i 0) (i 1)) (∑ j : Fin 8192, dist x (i 0) j)

/-- The same formula on one tile of 128 rows: from the tile's rows `xr`, all rows `xa`, the tile's squared
    norms `nr` (a column) and all squared norms `na` (a row). -/
def tileDist (xa : (⟨2, ![8192, 256]⟩ : Shape).Idx → EReal) (xr : (⟨2, ![128, 256]⟩ : Shape).Idx → EReal)
    (nr : (⟨2, ![128, 1]⟩ : Shape).Idx → EReal) (na : (⟨2, ![1, 8192]⟩ : Shape).Idx → EReal) (p : Fin 128) (q : Fin 8192) : EReal :=
  distOf (nr (ix2 p 0)) (na (ix2 0 q)) (∑ k : Fin 256, xr (ix2 p k) * xa (ix2 q k))

def tileOut (xa : (⟨2, ![8192, 256]⟩ : Shape).Idx → EReal) (xr : (⟨2, ![128, 256]⟩ : Shape).Idx → EReal)
    (nr : (⟨2, ![128, 1]⟩ : Shape).Idx → EReal) (na : (⟨2, ![1, 8192]⟩ : Shape).Idx → EReal) : (⟨2, ![128, 8192]⟩ : Shape).Idx → EReal :=
  fun i => Ideal.div (tileDist xa xr nr na (i 0) (i 1)) (∑ q : Fin 8192, tileDist xa xr nr na (i 0) q)

end PairwiseDist

end
-- ==== Proof.RefIsSpec.lean ====
/-
  The reference's last stage, read as a function of the argument array, is the specification
  `PairwiseDist.normDist`: entry (r, j) is the distance of rows r and j divided by the sum of row r's distances.
  The squared norms, the Gram entries and the distances are identified one stage at a time.
-/
import proofs.«136192_j1580547972355_1_alg».proof.Proof.Gen.ReferenceIdeal.Read
import proofs.«136192_j1580547972355_1_alg».proof.Proof.Spec
import Idealize.ShloMosaic.PureOps.Ideal
import Idealize.ShloMosaic.PureOps.Ideal.Laws
import Idealize.ShloMosaic.Lib.ValueIdx

noncomputable section

namespace Cert.ReferenceIdeal.RefValue

open Cert.ReferenceIdeal Cert.ReferenceIdeal.Read Idealize.ShloMosaic Idealize.ShloMosaic.ValueIdx

/-! ## The composed index maps at the coordinates (r, j) -/

/-- The row of a squared norm, through the two broadcasts along the columns. -/
theorem idx_row (r j : Fin 8192) : idx_main_v2 (idx_main_v4 (ix2 r j)) = ix1 r :=
  funext fun a => Fin.ext (by match a with | ⟨0, _⟩ => rfl)

/-- The column of a squared norm, through the two broadcasts along the rows. -/
theorem idx_col (r j : Fin 8192) : idx_main_v3 (idx_main_v5 (ix2 r j)) = ix1 j :=
  funext fun a => Fin.ext (by match a with | ⟨0, _⟩ => rfl)

/-- The k-th summand of row r's squared norm is read at (r, k). -/
theorem idx_sq (r : Fin 8192) (k : Fin 256) : idx_main_v1 (ix1 r) k = ix2 r k :=
  funext fun a => Fin.ext (by match a with | ⟨0, _⟩ => rfl | ⟨1, _⟩ => rfl)

/-- The left factor of the k-th summand of the Gram entry (r, j) is read at (r, k). -/
theorem idx_gramL (r j : Fin 8192) (k : Fin 256) : lidx_main_v8 (ix2 r j) k = ix2 r k :=
  funext fun a => Fin.ext (by match a with | ⟨0, _⟩ => rfl | ⟨1, _⟩ => rfl)

/-- The right factor, through the transpose, is read at (j, k). -/
theorem idx_gramR (r j : Fin 8192) (k : Fin 256) : idx_main_v7 (ridx_main_v8 (ix2 r j) k) = ix2 j k :=
  funext fun a => Fin.ext (by match a with | ⟨0, _⟩ => rfl | ⟨1, _⟩ => rfl)

/-- The row of a row sum, through the two broadcasts along the columns. -/
theorem idx_sumRow (r j : Fin 8192) : idx_main_v20 (idx_main_v21 (ix2 r j)) = ix1 r :=
  funext fun a => Fin.ext (by match a with | ⟨0, _⟩ => rfl)

/-- The q-th summand of row r's sum is read at (r, q). -/
theorem idx_sum (r q : Fin 8192) : idx_main_v19 (ix1 r) q = ix2 r q :=
  funext fun a => Fin.ext (by match a with | ⟨0, _⟩ => rfl | ⟨1, _⟩ => rfl)

/-! ## The stages -/

/-- The first float sum is the squared norm of its row. -/
theorem sqNorm_eq (x : (⟨S8192x256, .f32⟩ : BufTy).Contents (Elt Ideal)) (r : Fin 8192) :
    val_main_v1 (F := Ideal) x (ix1 r) = PairwiseDist.sqNorm x r := by
  rw [val_main_v1_apply]
  unfold PairwiseDist.sqNorm
  simp only [val_main_cst_apply, val_main_v0_apply, idx_sq, Ideal.mulf_def, Ideal.ofBits_def]

/-- The product with the transpose is the Gram entry. -/
theorem gram_eq (x : (⟨S8192x256, .f32⟩ : BufTy).Contents (Elt Ideal)) (r j : Fin 8192) :
    val_main_v8 (F := Ideal) x (ix2 r j) = PairwiseDist.gram x r j := by
  rw [val_main_v8_apply]
  unfold PairwiseDist.gram
  simp only [val_main_v7_apply, idx_gramL, idx_gramR]

/-- The clamped squared distance. -/
theorem clamp_eq (x : (⟨S8192x256, .f32⟩ : BufTy).Contents (Elt Ideal)) (r j : Fin 8192) :
    val_main_v13 (F := Ideal) x (ix2 r j)
      = max (PairwiseDist.sqNorm x r + PairwiseDist.sqNorm x j - PairwiseDist.two * PairwiseDist.gram x r j) PairwiseDist.zero := by
  simp only [val_main_v13_apply, val_main_v12_apply, val_main_cst_1_apply, val_main_v11_apply, val_main_v10_apply,
    val_main_v9_apply, val_main_cst_0_apply, val_main_v6_apply, val_main_v5_apply, val_main_v4_apply, val_main_v3_apply,
    val_main_v2_apply, idx_row, idx_col, sqNorm_eq, gram_eq, Ideal.mulf_def, Ideal.addf_def, Ideal.subf_def,
    Ideal.maximumf_def, Ideal.ofBits_def]

/-- Each entry before the division is the distance of its two rows. -/
theorem dist_eq (x : (⟨S8192x256, .f32⟩ : BufTy).Contents (Elt Ideal)) (r j : Fin 8192) :
    val_main_v18 (F := Ideal) x (ix2 r j) = PairwiseDist.dist x r j := by
  unfold PairwiseDist.dist PairwiseDist.distOf
  simp only [val_main_v18_apply, val_main_v17_apply, val_main_v16_apply, val_main_v15_apply, val_main_v14_apply,
    val_main_cst_2_apply, val_main_call0_v1_apply, val_main_call0_v0_apply, val_main_cst_3_apply,
    val_main_call1_v1_apply, val_main_call1_v0_apply, val_main_cst_4_apply, clamp_eq,
    Ideal.hostUnary_sqrt_def, Ideal.cmpf_def, Ideal.ofBits_def]

/-- The reference's last stage is the specification. -/
theorem ref_eq (x : (⟨Cert.ReferenceIdeal.S8192x256, .f32⟩ : BufTy).Contents (Elt Ideal)) :
    Cert.ReferenceIdeal.Read.val_main_v22 (F := Ideal) x = PairwiseDist.normDist x := by
  funext i
  obtain ⟨r, j, rfl⟩ : ∃ (r : Fin 8192) (j : Fin 8192), i = ix2 r j := ⟨i 0, i 1, eq_ix2 i⟩
  unfold PairwiseDist.normDist
  rw [val_main_v22_apply, val_main_v21_apply, val_main_v20_apply, idx_sumRow, val_main_v19_apply, dist_eq]
  simp only [val_main_cst_5_apply, idx_sum, dist_eq, Ideal.hostDivf_def, Ideal.ofBits_def, Ideal.ofBits_zero_f32, zero_add]

end Cert.ReferenceIdeal.RefValue

end
-- ==== Proof.TileRun.lean ====
/-
  What one grid point's run leaves in the output's staging buffer.

  The body loads the whole matrix, the point's 128 rows of it (a rectangle of the same buffer at a row
  offset that depends on the point), the point's column of squared norms and the whole row of squared
  norms, and stores ONE value covering the whole 128 × 8192 tile. So the tile's contents after the body
  are the body's arithmetic (the payload) applied to those four loaded values: the three whole-buffer loads
  read their buffers' contents, and the row-tile load reads the matrix through its rectangle.
-/
import proofs.«136192_j1580547972355_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.TileRun

open Cert.KernelIdeal Cert.KernelIdeal.Gen

variable {F : FTy → Type} [FloatOps F]

/-- The zero offsets of a whole-buffer access. -/
theorem zeroOffsets : (![0, 0] : Fin 2 → Nat) = fun _ => 0 := funext fun a => by fin_cases a <;> rfl

/-- The tile after the body: the payload of the whole matrix `x0`, its rows under the point's rectangle,
    the point's norms column `x2` and the norms row `x1`. -/
theorem tile_after_body (c : Dev nD) (i : grid0.Coords) (arg1 : Memref sig .tc .vmem S8192x256 .f32) (harg1 : arg1.IsWhole)
    (arg2 : Memref sig .tc .vmem S1x8192 .f32) (harg2 : arg2.IsWhole) (arg3 : Memref sig .tc .vmem S128x1 .f32) (harg3 : arg3.IsWhole)
    (arg4 : Memref sig .tc .vmem S128x8192 .f32) (harg4 : arg4.IsWhole)
    (x0 : Vec F S8192x256 .f32) (x1 : Vec F S1x8192 .f32) (x2 : Vec F S128x1 .f32) :
    out0_A_3 c i arg1 harg1 arg2 harg2 arg3 harg3 arg4 harg4 x0 x1 x2
      = k0_pay1 x0 (View.ld x0 (Rect.unit (s := S8192x256) (k0_off1 i) S128x256.size (k0_off1_inb i))) x2 x1 := by
  unfold out0_A_3
  rw [View.read_writes_eq_canon _ _ _ (cover0_A_3 c i arg1 harg1 arg2 harg2 arg3 harg3 arg4 harg4 x0 x1 x2)]
  unfold kernelRun0_A
  dsimp only
  rw [View.canon_unit_zero zeroOffsets]
  simp only [View.readAt_eq_ld, harg1.read_unread, harg2.read_unread, harg3.read_unread,
    View.ld_unit_zero (S := S8192x256) zeroOffsets, View.ld_unit_zero (S := S128x1) zeroOffsets,
    View.ld_unit_zero (S := S1x8192) zeroOffsets]

end Cert.KernelIdeal.TileRun

end
-- ==== Proof.SpecTile.lean ====
/-
  A tile of the result is the tile formula.

  If a tile's 128 rows are rows `R p` of the matrix `x`, its column of norms holds the squared norms of
  those rows and its row of norms the squared norms of all rows, then the tile formula at `(p, q)` is the
  whole formula at `(R p, q)`: the Gram entry, the two norms, hence the distance, hence the row's sum, are
  term by term the same.
-/
import proofs.«136192_j1580547972355_1_alg».proof.Proof.Spec

noncomputable section

namespace PairwiseDist

open Idealize.ShloMosaic Idealize.ShloMosaic.ValueIdx

theorem tileDist_eq (x : (⟨2, ![8192, 256]⟩ : Shape).Idx → EReal) (xr : (⟨2, ![128, 256]⟩ : Shape).Idx → EReal)
    (nr : (⟨2, ![128, 1]⟩ : Shape).Idx → EReal) (na : (⟨2, ![1, 8192]⟩ : Shape).Idx → EReal) (R : Fin 128 → Fin 8192)
    (hxr : ∀ p k, xr (ix2 p k) = x (ix2 (R p) k)) (hnr : ∀ p, nr (ix2 p 0) = sqNorm x (R p))
    (hna : ∀ q, na (ix2 0 q) = sqNorm x q) (p : Fin 128) (q : Fin 8192) :
    tileDist x xr nr na p q = dist x (R p) q := by
  unfold tileDist dist gram
  rw [hnr p, hna q]
  exact congrArg (distOf _ _) (Finset.sum_congr rfl fun k _ => by rw [hxr p k])

theorem tileOut_eq (x : (⟨2, ![8192, 256]⟩ : Shape).Idx → EReal) (xr : (⟨2, ![128, 256]⟩ : Shape).Idx → EReal)
    (nr : (⟨2, ![128, 1]⟩ : Shape).Idx → EReal) (na : (⟨2, ![1, 8192]⟩ : Shape).Idx → EReal) (R : Fin 128 → Fin 8192)
    (hxr : ∀ p k, xr (ix2 p k) = x (ix2 (R p) k)) (hnr : ∀ p, nr (ix2 p 0) = sqNorm x (R p))
    (hna : ∀ q, na (ix2 0 q) = sqNorm x q) (p : Fin 128) (q : Fin 8192) :
    tileOut x xr nr na (ix2 p q) = normDist x (ix2 (R p) q) := by
  unfold tileOut normDist
  show Ideal.div (tileDist x xr nr na p q) (∑ q' : Fin 8192, tileDist x xr nr na p q')
    = Ideal.div (dist x (R p) q) (∑ j : Fin 8192, dist x (R p) j)
  rw [tileDist_eq x xr nr na R hxr hnr hna p q]
  exact congrArg (Ideal.div _) (Finset.sum_congr rfl fun q' _ => tileDist_eq x xr nr na R hxr hnr hna p q')

end PairwiseDist

end
-- ==== Proof.Payload.lean ====
/-
  The kernel body's one stored value, read entry by entry, is the tile formula of the specification.

  At the entry (p, q) of a tile of 128 rows the body computes, over the extended reals,
    g   = ∑ₖ xr p k · xa q k                     (the product into the zero accumulator),
    s   = max (nr p + na q − 2 · g) 0,
    d   = √(s where s > 0, else 1) where s > 0, else 0,
    out = d / ∑_q' d p q'                         (the lane sum of the row, set back as a column and spread over the lanes).
  Each layout step (a cast to the same shape, a column or a row spread over the tile, a sum over the lanes, a vector set
  as a column) is read at an index by one small lemma; the arithmetic steps read pointwise by definition.
-/
import proofs.«136192_j1580547972355_1_alg».proof.Proof.Gen.KernelIdeal.Skeleton
import proofs.«136192_j1580547972355_1_alg».proof.Proof.Spec
import Idealize.ShloMosaic.Lib.ValueIdx
import Idealize.ShloMosaic.Lib.Pipeline.Value
import Idealize.ShloMosaic.PureOps.Ideal
import Idealize.ShloMosaic.PureOps.Ideal.Laws
import Mathlib.Algebra.BigOperators.Group.Finset.Defs
import Mathlib.Algebra.BigOperators.Group.Finset.Basic

noncomputable section

namespace Cert.KernelIdeal.TileValue

open Cert.KernelIdeal Cert.KernelIdeal.Gen Idealize.ShloMosaic Idealize.ShloMosaic.ValueIdx

/-! ## The layout steps at an index -/

/-- A column of 128 entries spread over 8192 lanes reads, at (p, q), the column's entry p. -/
theorem spread_col (w : Vec Ideal S128x1 .f32) (h : S128x1.Broadcasts S128x8192) (p : Fin 128) (q : Fin 8192) :
    broadcastTo S128x8192 w h (ix2 p q) = w (ix2 p 0) :=
  broadcastTo_apply w h (ix2 p q) (ix2 p 0) (fun a => by
    match a with
    | ⟨0, _⟩ =>
      show p.val = if (128 : ℕ) = 1 then 0 else p.val
      rw [if_neg (by decide)]
    | ⟨1, _⟩ =>
      show (0 : ℕ) = if (1 : ℕ) = 1 then 0 else q.val
      rw [if_pos rfl])

/-- A row of 8192 entries spread over 128 sublanes reads, at (p, q), the row's entry q. -/
theorem spread_row (w : Vec Ideal S1x8192 .f32) (h : S1x8192.Broadcasts S128x8192) (p : Fin 128) (q : Fin 8192) :
    broadcastTo S128x8192 w h (ix2 p q) = w (ix2 0 q) :=
  broadcastTo_apply w h (ix2 p q) (ix2 0 q) (fun a => by
    match a with
    | ⟨0, _⟩ =>
      show (0 : ℕ) = if (1 : ℕ) = 1 then 0 else p.val
      rw [if_pos rfl]
    | ⟨1, _⟩ =>
      show q.val = if (8192 : ℕ) = 1 then 0 else q.val
      rw [if_neg (by decide)])

/-! ## The product into the zero accumulator

Both operands are contracted along their second axis: at the result's entry (p, q) and the contraction coordinate k the
left operand is read at (p, k) and the right one at (q, k). -/

theorem lhs_gram_0 (i : S128x8192.Idx) (c : dot_S128x256_S8192x256_S128x8192_1_1_0_0_n_n.contr.Idx) :
    (dot_S128x256_S8192x256_S128x8192_1_1_0_0_n_n.lhsIdx i c 0).val = (i 0).val := by
  unfold DotDims.lhsIdx
  rw [dif_neg (show ¬(0 : Fin S128x256.rank) ∈ dot_S128x256_S8192x256_S128x8192_1_1_0_0_n_n.lhsBatch by decide), dif_pos (show (0 : Fin S128x256.rank) ∈ dot_S128x256_S8192x256_S128x8192_1_1_0_0_n_n.lhsNonContracting by decide)]
  rfl
theorem lhs_gram_1 (i : S128x8192.Idx) (c : dot_S128x256_S8192x256_S128x8192_1_1_0_0_n_n.contr.Idx) :
    (dot_S128x256_S8192x256_S128x8192_1_1_0_0_n_n.lhsIdx i c 1).val = (c ⟨0, by decide⟩).val :=
  dot_S128x256_S8192x256_S128x8192_1_1_0_0_n_n.lhsIdx_val_of_single rfl i c
theorem rhs_gram_0 (i : S128x8192.Idx) (c : dot_S128x256_S8192x256_S128x8192_1_1_0_0_n_n.contr.Idx) :
    (dot_S128x256_S8192x256_S128x8192_1_1_0_0_n_n.rhsIdx i c 0).val = (i 1).val := by
  unfold DotDims.rhsIdx
  rw [dif_neg (show ¬(0 : Fin S8192x256.rank) ∈ dot_S128x256_S8192x256_S128x8192_1_1_0_0_n_n.rhsBatch by decide), dif_pos (show (0 : Fin S8192x256.rank) ∈ dot_S128x256_S8192x256_S128x8192_1_1_0_0_n_n.rhsNonContracting by decide)]
  rfl
theorem rhs_gram_1 (i : S128x8192.Idx) (c : dot_S128x256_S8192x256_S128x8192_1_1_0_0_n_n.contr.Idx) :
    (dot_S128x256_S8192x256_S128x8192_1_1_0_0_n_n.rhsIdx i c 1).val = (c ⟨0, by decide⟩).val :=
  dot_S128x256_S8192x256_S128x8192_1_1_0_0_n_n.rhsIdx_val_of_single rfl i c

/-- The product of a [128, 256] block with the transpose of a [8192, 256] matrix, accumulated into zero, is at (p, q) the
    sum over k of the block's (p, k) times the matrix's (q, k). -/
theorem gram_apply (a : FVec Ideal S128x256 .bf16) (b : FVec Ideal S8192x256 .bf16) (p : Fin 128) (q : Fin 8192) :
    matmul dot_S128x256_S8192x256_S128x8192_1_1_0_0_n_n none a b (constant (F := Ideal) S128x8192 .f32 0x00000000#32) (ix2 p q)
      = ∑ k : Fin 256, a (ix2 p k) * b (ix2 q k) := by
  simp only [matmul]
  rw [Ideal.matmul_constant_zero_apply, ← Equiv.sum_comp (contrEquiv1 dot_S128x256_S8192x256_S128x8192_1_1_0_0_n_n 256 rfl rfl).symm]
  refine Finset.sum_congr rfl fun k _ => ?_
  have hk := contrEquiv1_symm_val dot_S128x256_S8192x256_S128x8192_1_1_0_0_n_n 256 rfl rfl k
  have el : dot_S128x256_S8192x256_S128x8192_1_1_0_0_n_n.lhsIdx (ix2 p q) ((contrEquiv1 dot_S128x256_S8192x256_S128x8192_1_1_0_0_n_n 256 rfl rfl).symm k) = ix2 p k := funext fun a => Fin.ext (by
    match a with
    | ⟨0, _⟩ => exact lhs_gram_0 _ _
    | ⟨1, _⟩ => exact (lhs_gram_1 _ _).trans hk)
  have er : dot_S128x256_S8192x256_S128x8192_1_1_0_0_n_n.rhsIdx (ix2 p q) ((contrEquiv1 dot_S128x256_S8192x256_S128x8192_1_1_0_0_n_n 256 rfl rfl).symm k) = ix2 q k := funext fun a => Fin.ext (by
    match a with
    | ⟨0, _⟩ => exact rhs_gram_0 _ _
    | ⟨1, _⟩ => exact (rhs_gram_1 _ _).trans hk)
  rw [el, er]

/-! ## The sum over the lanes, and the vector set back as a column -/

/-- The sum of a [128, 8192] tile over its lanes is, at row p, the sum over q of the tile's (p, q). -/
theorem lane_sum_apply (w : FVec Ideal S128x8192 .f32) (h : S128x8192.Reduces [1] S128) (hφ : FKind.Formats .f32)
    (hacc : (0x00000000#32 : BitVec 32) = 0x00000000#32) (p : Fin 128) :
    multiReduction (F := Ideal) .add [1] S128 w 0x00000000#32 h hφ hacc (ix1 p) = ∑ q : Fin 8192, w (ix2 p q) := by
  refine (Ideal.multiReduction_add_single w 0x00000000#32 h hφ hacc (ix1 p)).trans ?_
  refine Finset.sum_congr rfl fun q _ => ?_
  exact congrArg w (funext fun a => Fin.ext (by match a with | ⟨0, _⟩ => rfl | ⟨1, _⟩ => rfl))

/-- A vector of 128 entries set as a [128, 1] column reads, at (p, 0), the vector's entry p. -/
theorem as_col_apply (u : FVec Ideal S128 .f32) (h : S128.ShapeCasts S128x1) (p : Fin 128) :
    shapeCast S128x1 u h (ix2 p 0) = u (ix1 p) :=
  shapeCast_apply u h (ix2 p 0) (ix1 p) (by
    rw [Shape.rowMajor_val_one, Shape.rowMajor_val_two]
    show p.val = p.val * 1 + 0
    omega)

/-! ## The tile of distances, and the stored value -/

/-- The word of a float literal, read at the extended reals. -/
theorem word_eq (b : BitVec 32) : Scalar.ofBits (F := Ideal) .f32 b = Ideal.ofBits .f32 b := rfl

/-- A square root of a tile reads, at an index, the square root of the entry. -/
theorem sqrt_apply {s : Shape} {φ : FTy} (a : FVec Ideal s φ) (i : s.Idx) : sqrt a i = Ideal.sqrt (a i) := rfl

/-- The tile of distances the body holds before it divides each row by its sum. -/
def distTile (v2 : Vec Ideal S8192x256 .f32) (v5 : Vec Ideal S128x256 .f32) (v7 : Vec Ideal S128x1 .f32) (v9 : Vec Ideal S1x8192 .f32) :
    FVec Ideal S128x8192 .f32 :=
  have v3 : FVec Ideal S8192x256 .bf16 := truncf .bf16 v2 bitsLt_bf16_f32
  have v6 : FVec Ideal S128x256 .bf16 := truncf .bf16 v5 bitsLt_bf16_f32
  have v8 : FVec Ideal S128x1 .f32 := shapeCast S128x1 v7 shapeCasts_S128x1_S128x1
  have v10 : FVec Ideal S1x8192 .f32 := shapeCast S1x8192 v9 shapeCasts_S1x8192_S1x8192
  have cst : FVec Ideal S128x8192 .f32 := constant S128x8192 .f32 0x00000000#32
  have v11 : FVec Ideal S128x8192 .f32 := matmul dot_S128x256_S8192x256_S128x8192_1_1_0_0_n_n none v6 v3 cst
  have v12 : FVec Ideal S128x8192 .f32 := broadcastTo S128x8192 v8 broadcasts_S128x1_S128x8192
  have v13 : FVec Ideal S128x8192 .f32 := broadcastTo S128x8192 v10 broadcasts_S1x8192_S128x8192
  have v14 : FVec Ideal S128x8192 .f32 := addf v12 v13
  have cst_6 : Ideal .f32 := Scalar.ofBits .f32 0x40000000#32
  have v15 : FVec Ideal S128x8192 .f32 := broadcast S128x8192 cst_6
  have v16 : FVec Ideal S128x8192 .f32 := mulf v15 v11
  have v17 : FVec Ideal S128x8192 .f32 := subf v14 v16
  have cst_7 : Ideal .f32 := Scalar.ofBits .f32 0x00000000#32
  have v18 : FVec Ideal S128x8192 .f32 := broadcast S128x8192 cst_7
  have v19 : FVec Ideal S128x8192 .f32 := maximumf v17 v18
  have cst_8 : Ideal .f32 := Scalar.ofBits .f32 0x00000000#32
  have v20 : FVec Ideal S128x8192 .f32 := broadcast S128x8192 cst_8
  have v21 : IVec S128x8192 1 := cmpf .ogt v19 v20
  have cst_9 : Ideal .f32 := Scalar.ofBits .f32 0x3F800000#32
  have v22 : FVec Ideal S128x8192 .f32 := broadcast S128x8192 cst_9
  have v23 : FVec Ideal S128x8192 .f32 := select v21 v19 v22
  have v24 : FVec Ideal S128x8192 .f32 := sqrt v23
  have cst_10 : Ideal .f32 := Scalar.ofBits .f32 0x00000000#32
  have v25 : FVec Ideal S128x8192 .f32 := broadcast S128x8192 cst_10
  select v21 v24 v25

/-- The stored value is the tile of distances divided, row by row, by the tile's lane sums. -/
theorem pay_eq_div (v2 : Vec Ideal S8192x256 .f32) (v5 : Vec Ideal S128x256 .f32) (v7 : Vec Ideal S128x1 .f32) (v9 : Vec Ideal S1x8192 .f32) :
    k0_pay1 (F := Ideal) v2 v5 v7 v9
      = divf (distTile v2 v5 v7 v9)
          (broadcastTo S128x8192
            (shapeCast S128x1
              (multiReduction (F := Ideal) .add [1] S128 (distTile v2 v5 v7 v9) 0x00000000#32 reduces_S128x8192_S128 (.inl rfl) rfl)
              shapeCasts_S128_S128x1)
            broadcasts_S128x1_S128x8192) := rfl

/-- One entry of the tile of distances is the specification's distance of row p of the tile to row q. -/
theorem distTile_apply (v2 : Vec Ideal S8192x256 .f32) (v5 : Vec Ideal S128x256 .f32) (v7 : Vec Ideal S128x1 .f32) (v9 : Vec Ideal S1x8192 .f32)
    (p : Fin 128) (q : Fin 8192) :
    distTile v2 v5 v7 v9 (ix2 p q) = PairwiseDist.tileDist v2 v5 v7 v9 p q := by
  unfold distTile
  simp only [select_apply, sqrt_apply, cmpf_apply, maximumf_apply, subf_apply, addf_apply, mulf_apply, broadcast_apply]
  rw [shapeCast_self, shapeCast_self, spread_col, spread_row, gram_apply]
  simp only [truncf_apply, Ideal.cmpf_def, Ideal.ofBits_def]
  rfl

/-- The row sum the body divides by, read at any lane of row p: the sum over q of the row's distances. -/
theorem rowSum_apply (w : FVec Ideal S128x8192 .f32) (p : Fin 128) (q : Fin 8192) :
    broadcastTo S128x8192
        (shapeCast S128x1
          (multiReduction (F := Ideal) .add [1] S128 w 0x00000000#32 reduces_S128x8192_S128 (.inl rfl) rfl)
          shapeCasts_S128_S128x1)
        broadcasts_S128x1_S128x8192 (ix2 p q)
      = ∑ q' : Fin 8192, w (ix2 p q') := by
  rw [spread_col, as_col_apply]
  exact lane_sum_apply w reduces_S128x8192_S128 (.inl rfl) rfl p

/-- The body's stored value is the specification's tile: each distance divided by the sum of its row. -/
theorem pay_eq (v2 : Vec Ideal S8192x256 .f32) (v5 : Vec Ideal S128x256 .f32) (v7 : Vec Ideal S128x1 .f32) (v9 : Vec Ideal S1x8192 .f32) :
    k0_pay1 (F := Ideal) v2 v5 v7 v9 = PairwiseDist.tileOut v2 v5 v7 v9 := by
  funext i
  obtain ⟨p, q, rfl⟩ : ∃ (p : Fin 128) (q : Fin 8192), i = ix2 p q := ⟨i 0, i 1, eq_ix2 i⟩
  rw [pay_eq_div, divf_apply, rowSum_apply, distTile_apply]
  unfold PairwiseDist.tileOut
  exact congrArg (Ideal.div _) (Finset.sum_congr rfl fun q' _ => distTile_apply v2 v5 v7 v9 p q')

end Cert.KernelIdeal.TileValue

end
-- ==== Proof.ArrayValue.lean ====
/-
  The kernel's result array, as one function of the argument.

  The grid has 64 points; point t holds rows 128 t … 128 t + 127 of the result. Before the region the host
  computes the vector of squared norms and lays it out twice, as a row and as a column. At point t the body
  reads the whole matrix, rows 128 t + p of it (p < 128), the column entries 128 t + p of the norms and the
  whole row of norms; what it stores is the tile formula of those, which is the specification's formula at
  rows 128 t + p. Every row of the result lies in exactly the tile of point ⌊row / 128⌋, and every point
  writes its tile back, so after the run the array holds the specification's function of the argument.
-/
import proofs.«136192_j1580547972355_1_alg».proof.Proof.Gen.KernelIdeal.Value
import proofs.«136192_j1580547972355_1_alg».proof.Proof.TileRun
import proofs.«136192_j1580547972355_1_alg».proof.Proof.SpecTile
import Idealize.ShloMosaic.Lib.Pipeline.Value
import Idealize.ShloMosaic.Lib.StableHlo.Run
import Idealize.ShloMosaic.Lib.ValueIdx
import Idealize.ShloMosaic.PureOps.Ideal.Laws
import Idealize.ShloMosaic.Lib.Tactic
import proofs.«136192_j1580547972355_1_alg».proof.Proof.Payload

set_option maxRecDepth 16384

noncomputable section

open Idealize.ShloMosaic Idealize.ShloMosaic.TcCoe Idealize.SL.Sem Idealize.ShloMosaic.ValueIdx
open Idealize.ShloMosaic.Pipeline (Dat)

namespace Cert.KernelIdeal.ArrayValue

open Cert.KernelIdeal Cert.KernelIdeal.Gen Cert.KernelIdeal.Value

variable (m : (ℓ : Loc nD τ sig) → Buf (Elt Ideal) ℓ) (ρ : Dev nD → PrngReg)

/-- The argument matrix on core `c`. -/
abbrev xmat (c : Dev nD) : Vec Ideal S8192x256 .f32 := m ((c : Thread nD τ).loc main_arg0)

/-! ## The squared norms the host computes before the region -/

/-- The vector of squared norms: the host's sum over the columns of the entrywise square. -/
def hostNorms (x : Vec Ideal S8192x256 .f32) : Vec Ideal S8192 .f32 :=
  Host.reduceAdd (mulf x x) (constant (F := Ideal) S_ .f32 0x00000000#32) reducesTo_S8192x256_S8192_d1 h_S_

theorem hostNorms_apply (x : Vec Ideal S8192x256 .f32) (r : Fin 8192) :
    hostNorms x (ix1 r) = PairwiseDist.sqNorm x r := by
  unfold hostNorms PairwiseDist.sqNorm
  simp only [Host.reduceAdd, Ideal.hostReduceAdd_def]
  rw [Ideal.hostReduceAdd_single reducesTo_S8192x256_S8192_d1 (by decide)]
  refine congrArg (_ + ·) (Finset.sum_congr rfl fun k _ => ?_)
  exact congrArg (fun i => x i * x i) (funext fun a => Fin.ext (by match a with | ⟨0, _⟩ => rfl | ⟨1, _⟩ => rfl))

/-- The region finds the norms as a row … -/
theorem V_norms_row (c : Dev nD) :
    (V m c main_v2 : S1x8192.Idx → Elt Ideal .f32) = shapeCast S1x8192 (hostNorms (xmat m c)) shapeCasts_S8192_S1x8192 := by
  dsimp only [V, hostOps0]
  after_results
  rfl

/-- … and as a column. -/
theorem V_norms_col (c : Dev nD) :
    (V m c main_v3 : S8192x1.Idx → Elt Ideal .f32) = shapeCast S8192x1 (hostNorms (xmat m c)) shapeCasts_S8192_S8192x1 := by
  dsimp only [V, hostOps0]
  after_results
  rfl

theorem row_cast_apply (y : Vec Ideal S8192 .f32) (q : Fin 8192) :
    shapeCast S1x8192 y shapeCasts_S8192_S1x8192 (ix2 0 q) = y (ix1 q) :=
  shapeCast_apply y _ (ix2 0 q) (ix1 q) (by
    rw [Shape.rowMajor_val_one, Shape.rowMajor_val_two]
    show q.val = 0 * 8192 + q.val
    omega)

theorem col_cast_apply (y : Vec Ideal S8192 .f32) (r : Fin 8192) :
    shapeCast S8192x1 y shapeCasts_S8192_S8192x1 (ix2 r 0) = y (ix1 r) :=
  shapeCast_apply y _ (ix2 r 0) (ix1 r) (by
    rw [Shape.rowMajor_val_one, Shape.rowMajor_val_two]
    show r.val = r.val * 1 + 0
    omega)

/-! ## The windows' blocks -/

/-- The printed index maps and the row-tile load's offsets, decided over the 64 points. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ k0_off1 (grid0.coords t) (0 : Fin 2) = 128 * t.val ∧ k0_off1 (grid0.coords t) (1 : Fin 2) = 0 :=
  (by decide +kernel : ∀ t : Fin grid0.N, _)

/-- Row `p` of point `t`'s tile is row `128 t + p` of the matrix. -/
def rowOf (t : Fin cfg0.N) (p : Fin 128) : Fin 8192 :=
  ⟨128 * t.val + p.val, by have hN : cfg0.N = 64 := N_0; have := t.isLt; have := p.isLt; omega⟩

theorem blkAll_eq (c : Dev nD) (t : Fin cfg0.N) : (iblk m c 0 t : Vec Ideal S8192x256 .f32) = xmat m c := by
  funext y
  show V m c main_arg0 (((cfg0.win 0).blk t).view.emb y) = xmat m c y
  rw [V_main_arg0]
  obtain ⟨e0, e1, -⟩ := idx_facts t
  refine congrArg _ (funext fun a => Fin.ext ?_)
  match a with
  | ⟨0, _⟩ => show win0_0.index t (0 : Fin 2) * 8192 + 1 * (y 0).val = (y 0).val; omega
  | ⟨1, _⟩ => show win0_0.index t (1 : Fin 2) * 256 + 1 * (y 1).val = (y 1).val; omega

theorem blkNormsRow_apply (c : Dev nD) (t : Fin cfg0.N) (q : Fin 8192) :
    (iblk m c 1 t : Vec Ideal S1x8192 .f32) (ix2 0 q) = PairwiseDist.sqNorm (xmat m c) q := by
  show (V m c main_v2 : S1x8192.Idx → Elt Ideal .f32) (((cfg0.win 1).blk t).view.emb (ix2 0 q)) = _
  obtain ⟨-, -, e2, e3, -⟩ := idx_facts t
  have e : ((cfg0.win 1).blk t).view.emb (ix2 0 q) = ix2 0 q := funext fun a => Fin.ext (by
    match a with
    | ⟨0, _⟩ => show win0_1.index t (0 : Fin 2) * 1 + 1 * 0 = 0; omega
    | ⟨1, _⟩ => show win0_1.index t (1 : Fin 2) * 8192 + 1 * q.val = q.val; omega)
  rw [e, V_norms_row, row_cast_apply, hostNorms_apply]

theorem blkNormsCol_apply (c : Dev nD) (t : Fin cfg0.N) (p : Fin 128) :
    (iblk m c 2 t : Vec Ideal S128x1 .f32) (ix2 p 0) = PairwiseDist.sqNorm (xmat m c) (rowOf t p) := by
  show (V m c main_v3 : S8192x1.Idx → Elt Ideal .f32) (((cfg0.win 2).blk t).view.emb (ix2 p 0)) = _
  obtain ⟨-, -, -, -, e4, e5, -⟩ := idx_facts t
  have e : ((cfg0.win 2).blk t).view.emb (ix2 p 0) = ix2 (rowOf t p) 0 := funext fun a => Fin.ext (by
    match a with
    | ⟨0, _⟩ => show win0_2.index t (0 : Fin 2) * 128 + 1 * p.val = 128 * t.val + p.val; omega
    | ⟨1, _⟩ => show win0_2.index t (1 : Fin 2) * 1 + 1 * 0 = 0; omega)
  rw [e, V_norms_col, col_cast_apply, hostNorms_apply]

theorem rowsTile_apply (x : Vec Ideal S8192x256 .f32) (t : Fin cfg0.N) (p : Fin 128) (k : Fin 256) :
    View.ld x (Rect.unit (s := S8192x256) (k0_off1 (grid0.coords t)) S128x256.size (k0_off1_inb (grid0.coords t))) (ix2 p k)
      = x (ix2 (rowOf t p) k) := by
  obtain ⟨-, -, -, -, -, -, -, -, e8, e9⟩ := idx_facts t
  show x ((Rect.unit (s := S8192x256) (k0_off1 (grid0.coords t)) S128x256.size (k0_off1_inb (grid0.coords t))).emb (ix2 p k)) = _
  refine congrArg x (funext fun a => Fin.ext ?_)
  match a with
  | ⟨0, _⟩ => show k0_off1 (grid0.coords t) (0 : Fin 2) + 1 * p.val = 128 * t.val + p.val; omega
  | ⟨1, _⟩ => show k0_off1 (grid0.coords t) (1 : Fin 2) + 1 * k.val = k.val; omega

/-! ## What a point writes back, and the whole array -/

theorem flushed_eq (c : Dev nD) (t : Fin cfg0.N) :
    (dats m 0 c).flushed 3 t = ((cfg0.win 3).blk t).view.read (Elt Ideal) (PairwiseDist.normDist (xmat m c)) := by
  rw [flushed3_A, TileRun.tile_after_body, TileValue.pay_eq]
  funext y
  obtain ⟨p, q, rfl⟩ : ∃ (p : Fin 128) (q : Fin 8192), y = ix2 p q := ⟨y 0, y 1, eq_ix2 y⟩
  show PairwiseDist.tileOut (iblk m c 0 t : Vec Ideal S8192x256 .f32)
      (View.ld (iblk m c 0 t : Vec Ideal S8192x256 .f32) (Rect.unit (s := S8192x256) (k0_off1 (grid0.coords t)) S128x256.size (k0_off1_inb (grid0.coords t))))
      (iblk m c 2 t : Vec Ideal S128x1 .f32) (iblk m c 1 t : Vec Ideal S1x8192 .f32) (ix2 p q)
    = PairwiseDist.normDist (xmat m c) (((cfg0.win 3).blk t).view.emb (ix2 p q))
  rw [blkAll_eq]
  obtain ⟨-, -, -, -, -, -, e6, e7, -⟩ := idx_facts t
  have e : ((cfg0.win 3).blk t).view.emb (ix2 p q) = ix2 (rowOf t p) q := funext fun a => Fin.ext (by
    match a with
    | ⟨0, _⟩ => show win0_3.index t (0 : Fin 2) * 128 + 1 * p.val = 128 * t.val + p.val; omega
    | ⟨1, _⟩ => show win0_3.index t (1 : Fin 2) * 8192 + 1 * q.val = q.val; omega)
  rw [e]
  exact PairwiseDist.tileOut_eq (xmat m c) _ _ _ (rowOf t) (fun p k => rowsTile_apply (xmat m c) t p k)
    (fun p => blkNormsCol_apply m c t p) (fun q => blkNormsRow_apply m c t q) p q

theorem mem_blk (t : Fin cfg0.N) (i : S8192x8192.Idx) :
    i ∈ ((cfg0.win 3).blk t).view.set ↔ ∀ a : Fin 2, win0_3.index t a * S128x8192.size a ≤ (i a).val ∧ (i a).val < win0_3.index t a * S128x8192.size a + S128x8192.size a := by
  show i ∈ ((View.whole main_v4).slice (win0_3.rect t)).set ↔ _
  rw [View.set_slice_whole, Rect.mem_set_unit]
  exact Iff.rfl

theorem cover (i : S8192x8192.Idx) : ∃ t : Fin cfg0.N, (cfg0.win 3).flush t = true ∧ i ∈ ((cfg0.win 3).blk t).view.set := by
  have hN : cfg0.N = 64 := N_0
  have hi0 : (i 0).val < 8192 := (i 0).isLt
  have hi1 : (i 1).val < 8192 := (i 1).isLt
  refine ⟨⟨(i 0).val / 128, by omega⟩, flush0_3 _, ?_⟩
  rw [mem_blk]
  obtain ⟨-, -, -, -, -, -, e6, e7, -⟩ := idx_facts ⟨(i 0).val / 128, by omega⟩
  intro a
  match a with
  | ⟨0, _⟩ =>
    show win0_3.index ⟨(i 0).val / 128, _⟩ (0 : Fin 2) * 128 ≤ (i 0).val ∧ (i 0).val < win0_3.index ⟨(i 0).val / 128, _⟩ (0 : Fin 2) * 128 + 128
    rw [e6]; dsimp only; omega
  | ⟨1, _⟩ =>
    show win0_3.index ⟨(i 0).val / 128, _⟩ (1 : Fin 2) * 8192 ≤ (i 1).val ∧ (i 1).val < win0_3.index ⟨(i 0).val / 128, _⟩ (1 : Fin 2) * 8192 + 8192
    rw [e7]; omega

theorem final (c : Dev nD) : (dats m 0 c).arrAt 3 cfg0.N = PairwiseDist.normDist (xmat m c) :=
  (dats m 0 c).arrAt_eq_of_cover 3 (PairwiseDist.normDist (xmat m c)) (fun t _ => flushed_eq m c t) cover

theorem run : θ_run defs (onTc (τ := τ) (main (F := Ideal))) ⟨m, fun _ => 0, ρ⟩ fun r => ∀ c : Dev nD,
      r.2.mem ((c : Thread nD τ).loc main_v4) = PairwiseDist.normDist (xmat m c)
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.ArrayValue

end
-- ==== Proof.lean ====
/-
  Row-normalised pairwise Euclidean distances: the kernel against the jnp reference, over the extended reals.

  For a matrix x of 8192 rows and 256 columns both programs compute
    out r j = d r j / ∑ⱼ' d r j',   d r j = √s where s > 0 (else 0),   s = max (|x r|² + |x j|² − 2 ⟨x r, x j⟩) 0.
  The reference does it in one piece on the host. The kernel lets the host compute the squared norms, then
  works on 64 tiles of 128 rows: a product of the tile's rows with all rows (into a zero accumulator), the
  same pointwise arithmetic with the same literals, the sum of each tile row over its 8192 lanes, the
  division. Over the extended reals a change of float format is the identity and a sum does not depend on
  how it is tiled, so both results are the one function `PairwiseDist.normDist` of the argument
  (Proof/Spec.lean), entry by entry; no law that needs finiteness is used, so the precondition is not opened.

  The pieces: Proof/RefIsSpec.lean (the reference's last stage is the specification), Proof/Payload.lean
  (the kernel body's stored value is the tile formula), Proof/TileRun.lean (what a grid point leaves in its
  tile), Proof/SpecTile.lean (a tile of the specification), Proof/ArrayValue.lean (the kernel's result
  array). The three frames are the programs' runs with the result dropped; the idealization rewrote nothing.
-/
import proofs.«136192_j1580547972355_1_alg».proof.Defs
import proofs.«136192_j1580547972355_1_alg».proof.Proof.Gen.Kernel
import proofs.«136192_j1580547972355_1_alg».proof.Proof.Gen.Kernel.Skeleton
import proofs.«136192_j1580547972355_1_alg».proof.Proof.Gen.Kernel.Launch
import proofs.«136192_j1580547972355_1_alg».proof.Proof.Gen.Kernel.Points
import proofs.«136192_j1580547972355_1_alg».proof.Proof.Gen.Kernel.Frame
import proofs.«136192_j1580547972355_1_alg».proof.Proof.Gen.KernelIdeal
import proofs.«136192_j1580547972355_1_alg».proof.Proof.Gen.KernelIdeal.Skeleton
import proofs.«136192_j1580547972355_1_alg».proof.Proof.Gen.KernelIdeal.Launch
import proofs.«136192_j1580547972355_1_alg».proof.Proof.Gen.KernelIdeal.Points
import proofs.«136192_j1580547972355_1_alg».proof.Proof.Gen.KernelIdeal.Frame
import proofs.«136192_j1580547972355_1_alg».proof.Proof.Gen.ReferenceIdeal
import proofs.«136192_j1580547972355_1_alg».proof.Proof.Gen.Pre_finite_inputs
import proofs.«136192_j1580547972355_1_alg».proof.Proof.Gen.KernelIdeal.Value
import proofs.«136192_j1580547972355_1_alg».proof.Proof.Gen.ReferenceIdeal.Run
import proofs.«136192_j1580547972355_1_alg».proof.Proof.Gen.ReferenceIdeal.Read
import proofs.«136192_j1580547972355_1_alg».proof.Proof.RefIsSpec
import proofs.«136192_j1580547972355_1_alg».proof.Proof.ArrayValue
import Idealize.ShloMosaic.Adequacy
import Idealize.ShloMosaic.Init

noncomputable section

namespace Cert.Proof

open Idealize.ShloMosaic Idealize.SL.Sem

/-- The word-level kernel runs and keeps its argument. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- From arguments that agree, the kernel's result array and the reference's result both end at the
    row-normalised distance matrix of the argument. -/
theorem algebraic : Cert.algebraic_KernelIdeal_ReferenceIdeal := by
  intro m ρ m' ρ' _ hagree
  refine ⟨fun c => PairwiseDist.normDist (Cert.KernelIdeal.ArrayValue.xmat m c), Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.ref_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
